-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S2048x1024 : Shape := ⟨2, ![2048, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x4096x1024 .f32) (main_arg1 : FVec F S2048x1024 .f32) (main_arg2 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x4096x1024 : Shape := ⟨3, ![4, 4096, 1024]⟩
abbrev S2048x1024 : Shape := ⟨2, ![2048, 1024]⟩
abbrev S1024 : Shape := ⟨1, ![1024]⟩
abbrev S16384x1024 : Shape := ⟨2, ![16384, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1024 : Shape := ⟨2, ![1, 1024]⟩
abbrev S1024x1024 : Shape := ⟨2, ![1024, 1024]⟩
abbrev S1024x1 : Shape := ⟨2, ![1024, 1]⟩
abbrev S16384x2048 : Shape := ⟨2, ![16384, 2048]⟩
abbrev S1024x2048 : Shape := ⟨2, ![1024, 2048]⟩
abbrev S4x4096x2048 : Shape := ⟨3, ![4, 4096, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S2048x1024, .f32⟩
  | .hbm, ⟨2, _⟩ => ⟨S1024, .f32⟩
  | .hbm, ⟨3, _⟩ => ⟨S16384x1024, .f32⟩
  | .hbm, ⟨4, _⟩ => ⟨S2048x1024, .bf16⟩
  | .hbm, ⟨5, _⟩ => ⟨S1x1024, .f32⟩
  | .hbm, ⟨6, _⟩ => ⟨S16384x1024, .bf16⟩
  | .hbm, ⟨7, _⟩ => ⟨S16384x2048, .f32⟩
  | .hbm, ⟨8, _⟩ => ⟨S4x4096x2048, .f32⟩
  | .local _ .vmem, ⟨0, _⟩ => ⟨S2048x1024, .f32⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2048x1024, .bf16⟩
  | .local _ .vmem, ⟨10, _⟩ => ⟨S1024x2048, .f32⟩
  | .local _ .vmem, ⟨11, _⟩ => ⟨S1024x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg2_1 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem2_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  broadcasts_S1x1_S2048x1024 : S1x1.Broadcasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S16384x2048_S4x4096x2048 : S16384x2048.ShapeCasts S4x4096x2048
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x1024.size a
  hwx1_2 : ∀ i : grid1.Coords, EltTy.bits .bf16 = 32 ∨ (Rect.block (s := S16384x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .bf16 = 32 ∨ (Rect.block (s := S16384x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S2048x1024.size a
  hwx2_1 : ∀ i : grid2.Coords, EltTy.bits .bf16 = 32 ∨ (Rect.block (s := S2048x1024) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S16384x2048.size a
  hwx2_2 : ∀ i : grid2.Coords, EltTy.bits .f32 = 32 ∨ (Rect.block (s := S16384x2048) S1024x2048.size (cc2_transform_2 i) (hinb2_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg1) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S2048x1024 : Shape := ⟨2, ![2048, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2048x1024, .f32⟩
  | .hbm, ⟨2, _⟩ => ⟨S1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S2048x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S4x4096x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_call3_v0 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_c_11 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  reducesTo_S2048x1024_S_d0_1 : S2048x1024.ReducesTo [0, 1] S_
  bcast_S_S2048x1024 : S_.BroadcastsInDim S2048x1024 (![] : Fin 0 → Fin S2048x1024.rank)
  dot_S4x4096x1024_S2048x1024_S4x4096x2048_2_1_01_0_n_n_wf : DotDims.WF S4x4096x1024 S2048x1024 S4x4096x2048 [2] [1] [0, 1] [0] [] []

variable [Facts₀]

def dot_S4x4096x1024_S2048x1024_S4x4096x2048_2_1_01_0_n_n : DotDims S4x4096x1024 S2048x1024 S4x4096x2048 where
  lhsContracting := [2]
  rhsContracting := [1]
  lhsNonContracting := [0, 1]
  rhsNonContracting := [0]
  lhsBatch := []
  rhsBatch := []
  wf := dot_S4x4096x1024_S2048x1024_S4x4096x2048_2_1_01_0_n_n_wf

class Facts : Prop extends Facts₀ where

variable [Facts]
-- ==== Proof.Spec.lean ====
/-
  The function both programs compute, over the extended reals.

  A weight matrix `w` (2048 × 1024) is quantized to three levels with ONE scale for the whole matrix: with
  `s = 1 / max(ε_q, (Σ_{r,c} |w r c|) / 2²¹)` the entry becomes `clip(round(w · s), −1, 1) / s`.
  A token row `x` (1024 entries) is normalized by its root mean square, `x̂ k = x k · rsqrt((Σ_j x j²)/1024 + ε_n) · g k`
  with a gain row `g`, and quantized to 8 bits with ONE scale per row: with `t = 127 / max(ε_q, max_k |x̂ k|)` the entry
  becomes `clip(round(x̂ · t), −128, 127) / t`. The result at token (b, s) and output feature o is the inner product of
  the quantized token row with the quantized weight row o.

  Every float literal is kept as the pattern both programs print (`lit`), so that a literal shared by the two
  programs is never evaluated. `round` is round-half-to-even; the row maximum is the fold of `max` from the
  pattern of −∞, the form both a lane reduction and a host reduction take at the ideal values.
-/
import Idealize.ShloMosaic.PureOps.Ideal
import Idealize.ShloMosaic.Lib.ValueIdx

noncomputable section

namespace Cert.Spec

open Idealize.ShloMosaic Idealize.ShloMosaic.ValueIdx

/-- The extended real an f32 pattern denotes. -/
abbrev lit (b : BitVec 32) : EReal := Ideal.ofBits .f32 b

/-- Round to the nearest integer, ties to even; the infinities fixed. -/
abbrev rne (x : EReal) : EReal := Ideal.liftRound Ideal.roundHalfEven x

/-- The absolute value on the extended reals. -/
abbrev absE (x : EReal) : EReal := max x (-x)

/-- The maximum of a row of 1024 entries, from −∞. -/
abbrev rowMax (f : Fin 1024 → EReal) : EReal :=
  (Finset.univ : Finset (Fin 1024)).fold max (lit 0xFF800000#32) f

/-- The one scale of the weight matrix: the reciprocal of its mean absolute value, the mean kept above `ε_q`. -/
def wScale (w : Fin 2048 → Fin 1024 → EReal) : EReal :=
  Ideal.div (lit 0x3F800000#32)
    (max (lit 0x3727C5AC#32) (Ideal.div (∑ r : Fin 2048, ∑ c : Fin 1024, absE (w r c)) (lit 0x4A000000#32)))

/-- A weight entry quantized to −1, 0, 1 times the inverse scale. -/
def wQuant (w : Fin 2048 → Fin 1024 → EReal) (o : Fin 2048) (k : Fin 1024) : EReal :=
  Ideal.div (min (lit 0x3F800000#32) (max (lit 0xBF800000#32) (rne (w o k * wScale w)))) (wScale w)

/-- A token row normalized by its root mean square, times the gain row. -/
def xNorm (x g : Fin 1024 → EReal) (k : Fin 1024) : EReal :=
  x k * Ideal.rsqrt (Ideal.div (∑ j : Fin 1024, x j * x j) (lit 0x44800000#32) + lit 0x322BCC77#32) * g k

/-- The row's scale: 127 over its largest normalized magnitude, the magnitude kept above `ε_q`. -/
def xScale (x g : Fin 1024 → EReal) : EReal :=
  Ideal.div (lit 0x42FE0000#32) (max (lit 0x3727C5AC#32) (rowMax fun k => absE (xNorm x g k)))

/-- A normalized entry quantized to the integers −128 … 127 times the row's inverse scale. -/
def xQuant (x g : Fin 1024 → EReal) (k : Fin 1024) : EReal :=
  Ideal.div (min (lit 0x42FE0000#32) (max (lit 0xC3000000#32) (rne (xNorm x g k * xScale x g)))) (xScale x g)

/-- The result at token (b, s) and output feature o, from the three argument arrays. -/
def out (x0 : (⟨3, ![4, 4096, 1024]⟩ : Shape).Idx → EReal) (x1 : (⟨2, ![2048, 1024]⟩ : Shape).Idx → EReal)
    (x2 : (⟨1, ![1024]⟩ : Shape).Idx → EReal) (b : Fin 4) (s : Fin 4096) (o : Fin 2048) : EReal :=
  ∑ k : Fin 1024, xQuant (fun j => x0 (ix3 b s j)) (fun j => x2 (ix1 j)) k * wQuant (fun r c => x1 (ix2 r c)) o k

end Cert.Spec

end
-- ==== Proof.PayW.lean ====
/-
  The weight quantizer's stored value at an entry.

  The kernel sums the magnitudes of the loaded matrix along each row, then sums the 2048 row sums, divides by 2²¹,
  keeps the mean above ε, takes the reciprocal: a [1,1] vector whose one entry is the specification's scale. It then
  broadcasts that entry over the matrix and quantizes entry by entry; the final narrowing to bf16 is the identity on
  the extended reals.
-/
import proofs.«114957_j68985764708845_1_alg».proof.Proof.Gen.KernelIdeal.Skeleton
import proofs.«114957_j68985764708845_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

namespace W

/-- The index the inner lane sum inserts at row r is (r, c). -/
theorem lift_inner (r : Fin 2048) (c : Fin 1024) :
    reduces_S2048x1024_S2048.lift (ix1 r) c = ix2 r c := by
  funext a; apply Fin.ext
  match a with
  | ⟨0, _⟩ => rfl
  | ⟨1, _⟩ => rfl

/-- The index the outer lane sum inserts is (r, 0). -/
theorem lift_outer (u : Fin 1) (r : Fin 2048) :
    reduces_S2048x1_S1.lift (ix1 u) r = ix2 r u := by
  funext a; apply Fin.ext
  match a with
  | ⟨0, _⟩ => rfl
  | ⟨1, _⟩ => rfl

/-- The lane sum of magnitudes along a row. -/
theorem rowSum_apply (v0 : Vec Ideal S2048x1024 .f32) (r : Fin 2048) :
    multiReduction (F := Ideal) .add [1] S2048 (absf v0) 0x00000000#32 reduces_S2048x1024_S2048 (.inl rfl) rfl (ix1 r)
      = ∑ c : Fin 1024, Cert.Spec.absE (v0 (ix2 r c)) := by
  refine (Ideal.multiReduction_add_single (absf v0) _ reduces_S2048x1024_S2048 _ _ (ix1 r)).trans ?_
  refine Finset.sum_congr rfl fun c _ => ?_
  exact congrArg (fun i => Cert.Spec.absE (v0 i)) (lift_inner r c)

/-- The [1,1] vector the two lane sums leave: the sum of all magnitudes. -/
def absSumVec (v0 : Vec Ideal S2048x1024 .f32) : FVec Ideal S1x1 .f32 :=
  shapeCast S1x1 (multiReduction (F := Ideal) .add [0] S1
    (shapeCast S2048x1 (multiReduction (F := Ideal) .add [1] S2048 (absf v0) 0x00000000#32 reduces_S2048x1024_S2048 (.inl rfl) rfl)
      shapeCasts_S2048_S2048x1) 0x00000000#32 reduces_S2048x1_S1 (.inl rfl) rfl) shapeCasts_S1_S1x1

/-- Its one entry is the double sum over rows and columns. -/
theorem absSumVec_apply (v0 : Vec Ideal S2048x1024 .f32) (a b : Fin 1) :
    absSumVec v0 (ix2 a b) = ∑ r : Fin 2048, ∑ c : Fin 1024, Cert.Spec.absE (v0 (ix2 r c)) := by
  unfold absSumVec
  refine (shapeCast_a_1a_apply _ shapeCasts_S1_S1x1 a b).trans ?_
  refine (Ideal.multiReduction_add_single _ _ reduces_S2048x1_S1 _ _ (ix1 b)).trans ?_
  refine Finset.sum_congr rfl fun r _ => ?_
  refine (shapeCast_apply _ shapeCasts_S2048_S2048x1 _ (ix1 r) ?_).trans (rowSum_apply v0 r)
  rw [Shape.rowMajor_val_one, Shape.rowMajor_val_two]
  show r.val = r.val * 1 + b.val
  omega

/-- The [1,1] vector of the scale: the reciprocal of the mean magnitude, the mean kept above the quantizer's ε. -/
def scaleVec (v0 : Vec Ideal S2048x1024 .f32) : FVec Ideal S1x1 .f32 :=
  divf (broadcast S1x1 (FloatOps.ofBits (F := Ideal) .f32 0x3F800000#32))
    (maximumf (broadcast S1x1 (FloatOps.ofBits (F := Ideal) .f32 0x3727C5AC#32))
      (divf (absSumVec v0) (broadcast S1x1 (FloatOps.ofBits (F := Ideal) .f32 0x4A000000#32))))

/-- Its one entry is the specification's scale of the matrix. -/
theorem scaleVec_apply (v0 : Vec Ideal S2048x1024 .f32) (a b : Fin 1) :
    scaleVec v0 (ix2 a b) = Cert.Spec.wScale (fun r c => v0 (ix2 r c)) := by
  unfold scaleVec Cert.Spec.wScale
  simp only [divf_apply, maximumf_apply, broadcast_apply, absSumVec_apply, Ideal.ofBits_def]

/-- The scale broadcast over the matrix reads the scale at every entry. -/
theorem scaleBcast_apply (v0 : Vec Ideal S2048x1024 .f32) (o : Fin 2048) (k : Fin 1024) :
    broadcastTo S2048x1024 (scaleVec v0) broadcasts_S1x1_S2048x1024 (ix2 o k) = Cert.Spec.wScale (fun r c => v0 (ix2 r c)) := by
  refine (broadcastTo_apply (scaleVec v0) broadcasts_S1x1_S2048x1024 (ix2 o k) (ix2 (0 : Fin 1) (0 : Fin 1)) ?_).trans
    (scaleVec_apply v0 0 0)
  intro a
  match a with
  | ⟨0, _⟩ => rfl
  | ⟨1, _⟩ => rfl

end W

/-- The value the weight kernel stores at entry (o, k) is the quantized weight there, the scale taken over the
    whole loaded matrix. -/
theorem payW_apply (v0 : Vec Ideal S2048x1024 .f32) (o : Fin 2048) (k : Fin 1024) :
    k0_pay1 (F := Ideal) v0 (ix2 o k) = Cert.Spec.wQuant (fun r c => v0 (ix2 r c)) o k := by
  show Ideal.div (min (Ideal.ofBits .f32 0x3F800000#32) (max (Ideal.ofBits .f32 0xBF800000#32)
      (Ideal.liftRound Ideal.roundHalfEven
        (v0 (ix2 o k) * broadcastTo S2048x1024 (W.scaleVec v0) broadcasts_S1x1_S2048x1024 (ix2 o k)))))
    (broadcastTo S2048x1024 (W.scaleVec v0) broadcasts_S1x1_S2048x1024 (ix2 o k)) = _
  rw [W.scaleBcast_apply]
  rfl

end Cert.KernelIdeal.Hand

end
-- ==== Proof.Reg0.lean ====
/-
  The first region (one grid point, the whole weight matrix in one block): the array it leaves.
-/
import proofs.«114957_j68985764708845_1_alg».proof.Proof.Gen.KernelIdeal.Frame
import proofs.«114957_j68985764708845_1_alg».proof.Proof.PayW
import proofs.«114957_j68985764708845_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

namespace W

/-- The block's offsets (0, 0) as the constant function. -/
theorem offZero : (![0, 0] : Fin 2 → Nat) = fun _ => 0 := funext fun a => by fin_cases a <;> rfl

/-- The quantized matrix as one function of the matrix the region finds. -/
abbrev quantOf (a : S2048x1024.Idx → EReal) : S2048x1024.Idx → EReal :=
  fun i => Cert.Spec.wQuant (fun r k => a (ix2 r k)) ⟨(i 0).val, (i 0).isLt⟩ ⟨(i 1).val, (i 1).isLt⟩

/-- The kernel's stored value at any index of the block is the quantized matrix there. -/
theorem pay_eq_quantOf (x0 : Vec Ideal S2048x1024 .f32) (j : S2048x1024.Idx) :
    k0_pay1 (F := Ideal) x0 j = quantOf x0 j := by
  obtain ⟨p, q, rfl⟩ : ∃ (p : Fin 2048) (q : Fin 1024), j = ix2 p q := ⟨j 0, j 1, eq_ix2 j⟩
  exact payW_apply x0 p q

/-- Both windows sit at block (0, 0) at the one grid point. -/
theorem blockIdx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The operand's block at the one point is the whole matrix the region finds. -/
theorem iblk0_eq (c : Dev nD) (t : Fin cfg0.N) :
    (iblk0 V c 0 t : S2048x1024.Idx → EReal) = (V c main_arg1 : S2048x1024.Idx → EReal) := by
  obtain ⟨e0, e1, e2, e3⟩ := blockIdx0 t
  funext y
  show V c main_arg1 (((cfg0.win 0).blk t).view.emb y) = V c main_arg1 y
  congr 1
  funext a; apply Fin.ext
  match a with
  | ⟨0, _⟩ => show win0_0.index t (0 : Fin 2) * 2048 + 1 * (y 0).val = (y 0).val; omega
  | ⟨1, _⟩ => show win0_0.index t (1 : Fin 2) * 1024 + 1 * (y 1).val = (y 1).val; omega

/-- What the one point writes back is the block of the quantized matrix. -/
theorem flushed0_eq (c : Dev nD) (t : Fin cfg0.N) :
    (dat0 V c).flushed 1 t = ((cfg0.win 1).blk t).view.read (Elt Ideal) (quantOf (V c main_arg1)) := by
  show (cfg0.win 1).cut (grid0.coords t) ((dat0 V c).after 1 t) = _
  rw [after0_1]
  unfold out0_1
  rw [View.canon_unit_zero offZero]
  simp only [View.ld_unit_zero (S := S2048x1024) offZero]
  obtain ⟨e0, e1, e2, e3⟩ := blockIdx0 t
  funext j
  show k0_pay1 (F := Ideal) (iblk0 V c 0 t) j = quantOf (V c main_arg1) (((cfg0.win 1).blk t).view.emb j)
  refine (congrArg (fun x : Vec Ideal S2048x1024 .f32 => k0_pay1 (F := Ideal) x j) (iblk0_eq V c t)).trans ?_
  refine (pay_eq_quantOf _ _).trans ?_
  congr 1
  funext a; apply Fin.ext
  match a with
  | ⟨0, _⟩ => show (j 0).val = win0_1.index t (0 : Fin 2) * 2048 + 1 * (j 0).val; omega
  | ⟨1, _⟩ => show (j 1).val = win0_1.index t (1 : Fin 2) * 1024 + 1 * (j 1).val; omega

/-- Every index of the result array lies in the one point's block. -/
theorem covered0 (i : S2048x1024.Idx) :
    ∃ t : Fin cfg0.N, (cfg0.win 1).flush t = true ∧ i ∈ ((cfg0.win 1).blk t).view.set := by
  have t : Fin cfg0.N := ⟨0, by decide⟩
  obtain ⟨e0, e1, e2, e3⟩ := blockIdx0 t
  refine ⟨t, flush0_1 t, ?_⟩
  show i ∈ ((View.whole main_v1).slice (win0_1.rect t)).set
  rw [View.set_slice_whole, Rect.mem_set_unit]
  intro a
  have h0 : (i 0).val < 2048 := (i 0).isLt
  have h1 : (i 1).val < 1024 := (i 1).isLt
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

end W

/-- After the weight region its result array holds the quantized weights of the matrix the region found in its
    operand's array. -/
theorem final0 (c : Dev nD) :
    (dat0 V c).arrAt 1 cfg0.N = (fun i : S2048x1024.Idx =>
      Cert.Spec.wQuant (fun r k => (V c main_arg1 : S2048x1024.Idx → EReal) (ix2 r k)) ⟨(i 0).val, (i 0).isLt⟩ ⟨(i 1).val, (i 1).isLt⟩) :=
  (dat0 V c).arrAt_eq_of_cover 1 (W.quantOf (V c main_arg1)) (fun t _ => W.flushed0_eq V c t) W.covered0

end Cert.KernelIdeal.Hand

end
-- ==== Proof.PayX.lean ====
/-
  The activation quantizer's stored value at an entry.
-/
import proofs.«114957_j68985764708845_1_alg».proof.Proof.Gen.KernelIdeal.Skeleton
import proofs.«114957_j68985764708845_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

namespace PayX

/-! ## The layout operations of the kernel, read at an entry -/

/-- The index a reduction over the columns inserts column \`j\` at, for row \`p\`, is \`(p, j)\`. -/
theorem lift_row (h : S1024x1024.Reduces [1] S1024) (p j : Fin 1024) : h.lift (ix1 p) j = ix2 p j := by
  funext a
  refine Fin.ext ?_
  match a with
  | ⟨0, _⟩ => rfl
  | ⟨1, _⟩ => rfl

/-- A vector of 1024 entries cast to a column reads, at row \`p\`, its entry \`p\`. -/
theorem colCast_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_one, Shape.rowMajor_val_two]
    show p.val = p.val * 1 + u.val
    omega)

/-- A column laid along every column of the square reads, at \`(p, k)\`, its row \`p\`. -/
theorem colBroadcast_apply {α : Type} (x : S1024x1.Idx → α) (h : S1024x1.Broadcasts S1024x1024) (p k : Fin 1024) :
    broadcastTo S1024x1024 x h (ix2 p k) = x (ix2 p (0 : Fin 1)) :=
  broadcastTo_apply x h _ _ (fun a => by
    match a with
    | ⟨0, _⟩ => rfl
    | ⟨1, _⟩ => rfl)

/-- A row laid along every row of the square reads, at \`(p, k)\`, its column \`k\`. -/
theorem rowBroadcast_apply {α : Type} (x : S1x1024.Idx → α) (h : S1x1024.Broadcasts S1024x1024) (p k : Fin 1024) :
    broadcastTo S1024x1024 x h (ix2 p k) = x (ix2 (0 : Fin 1) k) :=
  broadcastTo_apply x h _ _ (fun a => by
    match a with
    | ⟨0, _⟩ => rfl
    | ⟨1, _⟩ => rfl)

/-! ## The kernel's value in three steps: the normalized entries, the row's scale, the quantized entry -/

/-- The kernel's normalized block: each entry times the reciprocal root of its row's mean square (plus \`ε_n\`), times the gain. -/
def nrm (v0 : Vec Ideal S1024x1024 .f32) (v2 : Vec Ideal S1x1024 .f32) : FVec Ideal S1024x1024 .f32 :=
  mulf (mulf (shapeCast S1024x1024 v0 shapeCasts_S1024x1024_S1024x1024)
      (broadcastTo S1024x1024
        (rsqrt (addf (divf (shapeCast S1024x1
            (multiReduction .add [1] S1024
              (mulf (shapeCast S1024x1024 v0 shapeCasts_S1024x1024_S1024x1024) (shapeCast S1024x1024 v0 shapeCasts_S1024x1024_S1024x1024))
              0x00000000#32 reduces_S1024x1024_S1024 (.inl rfl) rfl) shapeCasts_S1024_S1024x1)
            (broadcast S1024x1 (Scalar.ofBits .f32 0x44800000#32)))
          (broadcast S1024x1 (Scalar.ofBits .f32 0x322BCC77#32))))
        broadcasts_S1024x1_S1024x1024))
    (broadcastTo S1024x1024 (shapeCast S1x1024 v2 shapeCasts_S1x1024_S1x1024) broadcasts_S1x1024_S1024x1024)

/-- The kernel's column of row scales: 127 over each row's largest normalized magnitude, kept above \`ε_q\`. -/
def scl (v0 : Vec Ideal S1024x1024 .f32) (v2 : Vec Ideal S1x1024 .f32) : FVec Ideal S1024x1 .f32 :=
  divf (broadcast S1024x1 (Scalar.ofBits .f32 0x42FE0000#32))
    (maximumf (broadcast S1024x1 (Scalar.ofBits .f32 0x3727C5AC#32))
      (shapeCast S1024x1
        (multiReduction .maximumf [1] S1024 (absf (nrm v0 v2)) 0xFF800000#32 reduces_S1024x1024_S1024 (.inl rfl) rfl)
        shapeCasts_S1024_S1024x1))

/-- The stored block is the clipped rounding of the normalized block times the scales, over the scales. -/
theorem k1_pay1_eq (v0 : Vec Ideal S1024x1024 .f32) (v2 : Vec Ideal S1x1024 .f32) :
    k1_pay1 (F := Ideal) v0 v2
      = truncf .bf16 (divf
          (minimumf (broadcast S1024x1024 (Scalar.ofBits .f32 0x42FE0000#32))
            (maximumf (broadcast S1024x1024 (Scalar.ofBits .f32 0xC3000000#32))
              (roundeven (mulf (nrm v0 v2) (broadcastTo S1024x1024 (scl v0 v2) broadcasts_S1024x1_S1024x1024)))))
          (broadcastTo S1024x1024 (scl v0 v2) broadcasts_S1024x1_S1024x1024)) bitsLt_bf16_f32 := rfl

/-! ## Three more pointwise operations read at an index (the others are the library's) -/

section AtIdeal
variable {s : Shape} {φ : FTy}
/-- A reciprocal square root at an index is that of the element … -/
theorem rsqrt_apply (a : FVec Ideal s φ) (i : s.Idx) : rsqrt a i = Ideal.rsqrt (a i) := rfl
/-- … an absolute value the larger of the element and its negation … -/
theorem absf_apply (a : FVec Ideal s φ) (i : s.Idx) : absf a i = max (a i) (-(a i)) := rfl
/-- … and a rounding to the nearest even integer that of the element. -/
theorem roundeven_apply (a : FVec Ideal s φ) (i : s.Idx) : roundeven a i = Ideal.liftRound Ideal.roundHalfEven (a i) := rfl
/-- A scalar constant at the extended reals is the value its pattern denotes. -/
theorem scalar_ofBits (b : BitVec φ.bits) : Scalar.ofBits (F := Ideal) φ b = Ideal.ofBits φ b := rfl
end AtIdeal

/-- The sum of squares over row \`p\`, as the kernel takes it: the lane sum of the squared block, cast to a column. -/
theorem rowSum_apply (v0 : FVec Ideal S1024x1024 .f32) (p : Fin 1024) (u : Fin 1) :
    shapeCast S1024x1 (multiReduction (F := Ideal) .add [1] S1024 (mulf v0 v0) 0x00000000#32 reduces_S1024x1024_S1024 (.inl rfl) rfl)
        shapeCasts_S1024_S1024x1 (ix2 p u)
      = ∑ j : Fin 1024, v0 (ix2 p j) * v0 (ix2 p j) := by
  rw [colCast_apply]
  refine (Ideal.multiReduction_add_single (mulf v0 v0) 0x00000000#32 reduces_S1024x1024_S1024 (.inl rfl) rfl (ix1 p)).trans ?_
  refine Finset.sum_congr rfl fun (j : Fin 1024) _ => ?_
  exact congrArg (fun i => v0 i * v0 i) (lift_row reduces_S1024x1024_S1024 p j)

/-- The largest magnitude over row \`p\`, as the kernel takes it: the lane maximum from −∞, cast to a column. -/
theorem rowMax_apply (w : FVec Ideal S1024x1024 .f32) (p : Fin 1024) (u : Fin 1) :
    shapeCast S1024x1 (multiReduction (F := Ideal) .maximumf [1] S1024 w 0xFF800000#32 reduces_S1024x1024_S1024 (.inl rfl) rfl)
        shapeCasts_S1024_S1024x1 (ix2 p u)
      = Cert.Spec.rowMax (fun j => w (ix2 p j)) := by
  rw [colCast_apply]
  refine (Ideal.multiReduction_maximumf_single w 0xFF800000#32 reduces_S1024x1024_S1024 (.inl rfl) rfl (ix1 p)).trans ?_
  show (Finset.univ : Finset (Fin 1024)).fold max (Cert.Spec.lit 0xFF800000#32) (w ∘ reduces_S1024x1024_S1024.lift (ix1 p)) = _
  congr 1
  funext (j : Fin 1024)
  exact congrArg w (lift_row reduces_S1024x1024_S1024 p j)

/-- The normalized block at \`(p, k)\` is the normalized row \`p\` at \`k\`. -/
theorem nrm_apply (v0 : Vec Ideal S1024x1024 .f32) (v2 : Vec Ideal S1x1024 .f32) (p k : Fin 1024) :
    nrm v0 v2 (ix2 p k) = Cert.Spec.xNorm (fun j => v0 (ix2 p j)) (fun j => v2 (ix2 (0 : Fin 1) j)) k := by
  unfold nrm
  rw [shapeCast_self, shapeCast_self, mulf_apply, mulf_apply, rowBroadcast_apply, colBroadcast_apply, rsqrt_apply, addf_apply,
    divf_apply, rowSum_apply, broadcast_apply, broadcast_apply, scalar_ofBits, scalar_ofBits]
  rfl

/-- The scale column at row \`p\` is the scale of the normalized row \`p\`. -/
theorem scl_apply (v0 : Vec Ideal S1024x1024 .f32) (v2 : Vec Ideal S1x1024 .f32) (p : Fin 1024) (u : Fin 1) :
    scl v0 v2 (ix2 p u) = Cert.Spec.xScale (fun j => v0 (ix2 p j)) (fun j => v2 (ix2 (0 : Fin 1) j)) := by
  unfold scl
  rw [divf_apply, maximumf_apply, rowMax_apply, broadcast_apply, broadcast_apply, scalar_ofBits, scalar_ofBits]
  unfold Cert.Spec.xScale
  congr 3
  funext j
  rw [absf_apply, nrm_apply]

end PayX

/-- The value the activation kernel stores at entry (p, k) of its block is the quantized normalized row p there: the
    row's mean square, maximum and scale are taken over row p of the loaded block, the gain over the loaded gain row. -/
theorem payX_apply (v0 : Vec Ideal S1024x1024 .f32) (v2 : Vec Ideal S1x1024 .f32) (p k : Fin 1024) :
    k1_pay1 (F := Ideal) v0 v2 (ix2 p k) = Cert.Spec.xQuant (fun j => v0 (ix2 p j)) (fun j => v2 (ix2 (0 : Fin 1) j)) k := by
  rw [PayX.k1_pay1_eq, truncf_apply, divf_apply, minimumf_apply, maximumf_apply, PayX.roundeven_apply, mulf_apply,
    PayX.colBroadcast_apply, PayX.scl_apply, PayX.nrm_apply, broadcast_apply, broadcast_apply, PayX.scalar_ofBits, PayX.scalar_ofBits]
  rfl

end Cert.KernelIdeal.Hand

end
-- ==== Proof.Reg1.lean ====
/-
  The second region (16 grid points, each a block of 1024 token rows): the array it leaves.
-/
import proofs.«114957_j68985764708845_1_alg».proof.Proof.Gen.KernelIdeal.Frame
import proofs.«114957_j68985764708845_1_alg».proof.Proof.PayX
import proofs.«114957_j68985764708845_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

namespace Reg1

/-- The zero offsets of a whole-block access, as a constant function. -/
theorem zero_offsets : (![0, 0] : Fin 2 → Nat) = fun _ => 0 := funext fun a => by fin_cases a <;> rfl

/-- The region has sixteen grid points. -/
theorem points1 : grid1.N = 16 := by decide

/-- The quantized activation array: entry (r, k) is the quantized normalized token row r at k. -/
abbrev quantX (c : Dev nD) : S16384x1024.Idx → EReal := fun i =>
  Cert.Spec.xQuant (fun j => (V c main_v0 : S16384x1024.Idx → EReal) (ix2 ⟨(i 0).val, (i 0).isLt⟩ j))
    (fun j => (V c main_v2 : S1x1024.Idx → EReal) (ix2 (0 : Fin 1) j)) ⟨(i 1).val, (i 1).isLt⟩

/-- It depends on an index through its two coordinates' values only. -/
theorem quantX_at (c : Dev nD) (r : Fin 16384) (k : Fin 1024) (i : S16384x1024.Idx) (h0 : (i 0).val = r.val) (h1 : (i 1).val = k.val) :
    quantX V c i = Cert.Spec.xQuant (fun j => (V c main_v0 : S16384x1024.Idx → EReal) (ix2 r j))
      (fun j => (V c main_v2 : S1x1024.Idx → EReal) (ix2 (0 : Fin 1) j)) k := by
  have e0 : (⟨(i 0).val, (i 0).isLt⟩ : Fin 16384) = r := Fin.ext h0
  have e1 : (⟨(i 1).val, (i 1).isLt⟩ : Fin 1024) = k := Fin.ext h1
  show Cert.Spec.xQuant _ _ _ = _
  rw [e0, e1]

/-- The printed index maps over the grid: at point \`t\` the token window and the result window are at block (t, 0), the gain
    window at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The token window's block at point \`t\` is rows \`1024 t … 1024 t + 1023\` of the token array. -/
theorem tokens_apply (c : Dev nD) (t : Fin cfg1.N) (p j : Fin 1024) (r : Fin 16384) (hr : r.val = t.val * 1024 + p.val) :
    (iblk1 V c 0 t : S1024x1024.Idx → EReal) (ix2 p j) = (V c main_v0 : S16384x1024.Idx → EReal) (ix2 r j) := by
  obtain ⟨e0, e1, -⟩ := block_indices t
  unfold iblk1
  rw [View.read_apply]
  show (V c main_v0 : S16384x1024.Idx → EReal) _ = V c main_v0 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * j.val = j.val; rw [e1]; omega

/-- The gain window's block at every point is the gain row. -/
theorem gains_apply (c : Dev nD) (t : Fin cfg1.N) (j : Fin 1024) :
    (iblk1 V c 1 t : S1x1024.Idx → EReal) (ix2 (0 : Fin 1) j) = (V c main_v2 : S1x1024.Idx → EReal) (ix2 (0 : Fin 1) j) := by
  obtain ⟨-, -, e2, e3, -⟩ := block_indices t
  unfold iblk1
  rw [View.read_apply]
  show (V c main_v2 : S1x1024.Idx → EReal) _ = V c main_v2 _
  congr 1
  funext a
  apply Fin.ext
  match a with
  | ⟨0, _⟩ => show win1_1.index t (0 : Fin 2) * 1 + 1 * 0 = 0; rw [e2]
  | ⟨1, _⟩ => show win1_1.index t (1 : Fin 2) * 1024 + 1 * j.val = j.val; rw [e3]; omega

/-- What point \`t\` writes back is block \`t\` of the quantized activation array. -/
theorem flushed1_eq (c : Dev nD) (t : Fin cfg1.N) :
    (dat1 V c).flushed 2 t = ((cfg1.win 2).blk t).view.read (Elt Ideal) (quantX V c) := by
  have hN : grid1.N = 16 := points1
  have ht : t.val < 16 := hN ▸ t.isLt
  obtain ⟨-, -, -, -, e4, e5⟩ := block_indices t
  show (cfg1.win 2).cut (grid1.coords t) ((dat1 V c).after 2 t) = _
  rw [after1_2]
  unfold out1_2
  rw [View.canon_unit_zero zero_offsets]
  simp only [View.ld_unit_zero (S := S1024x1024) zero_offsets, View.ld_unit_zero (S := S1x1024) zero_offsets]
  refine funext fun (y : S1024x1024.Idx) => ?_
  obtain ⟨p, q, rfl⟩ : ∃ (p q : Fin 1024), y = ix2 p q := ⟨y 0, y 1, eq_ix2 y⟩
  show k1_pay1 (F := Ideal) (iblk1 V c 0 t) (iblk1 V c 1 t) (ix2 p q) = quantX V c (((cfg1.win 2).blk t).view.emb (ix2 p q))
  have hp : p.val < 1024 := p.isLt
  rw [payX_apply, quantX_at V c ⟨t.val * 1024 + p.val, by omega⟩ q _
    (show win1_2.index t (0 : Fin 2) * 1024 + 1 * p.val = t.val * 1024 + p.val by rw [e4]; omega)
    (show win1_2.index t (1 : Fin 2) * 1024 + 1 * q.val = q.val by rw [e5]; omega)]
  congr 1
  · funext j; exact tokens_apply V c t p j _ rfl
  · funext j; exact gains_apply V c t j

/-- An index of the result array is in point \`t\`'s block iff each coordinate is in the block's range on its axis. -/
theorem mem_block (t : Fin cfg1.N) (i : S16384x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v3).slice (win1_2.rect t)).set ↔ _
  rw [View.set_slice_whole, Rect.mem_set_unit]
  exact Iff.rfl

/-- Every index of the result array is in the block of the point its row falls in: row \`r\` in that of point \`r / 1024\`. -/
theorem covered (i : S16384x1024.Idx) :
    ∃ t : Fin cfg1.N, (cfg1.win 2).flush t = true ∧ i ∈ ((cfg1.win 2).blk t).view.set := by
  have hi0 : (i 0).val < 16384 := (i 0).isLt
  have hi1 : (i 1).val < 1024 := (i 1).isLt
  obtain ⟨t, ht⟩ : ∃ t : Fin cfg1.N, t.val = (i 0).val / 1024 :=
    ⟨⟨(i 0).val / 1024, by show _ < grid1.N; rw [points1]; omega⟩, rfl⟩
  obtain ⟨-, -, -, -, e4, e5⟩ := block_indices t
  refine ⟨t, flush1_2 t, ?_⟩
  rw [mem_block]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 1024 ≤ (i 1).val ∧ (i 1).val < win1_2.index t (1 : Fin 2) * 1024 + 1024
    rw [e5]; omega

end Reg1

/-- After the activation region its result array holds, at (r, k), the quantized normalized token row r at k: the row
    read from the token array the region found, the gain from the gain row it found. -/
theorem final1 (c : Dev nD) :
    (dat1 V c).arrAt 2 cfg1.N = (fun i : S16384x1024.Idx =>
      Cert.Spec.xQuant (fun j => (V c main_v0 : S16384x1024.Idx → EReal) (ix2 ⟨(i 0).val, (i 0).isLt⟩ j))
        (fun j => (V c main_v2 : S1x1024.Idx → EReal) (ix2 (0 : Fin 1) j)) ⟨(i 1).val, (i 1).isLt⟩) :=
  (dat1 V c).arrAt_eq_of_cover 2 (Reg1.quantX V c) (fun t _ => Reg1.flushed1_eq V c t) Reg1.covered

end Cert.KernelIdeal.Hand

end
-- ==== Proof.PayM.lean ====
/-
  The matrix product's stored value at an entry.
-/
import proofs.«114957_j68985764708845_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

namespace M

/-- The left operand's row coordinate is the result's row coordinate. -/
theorem dotM_lhs_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
/-- The left operand's column coordinate is the contraction index. -/
theorem dotM_lhs_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
/-- The right operand's row coordinate is the result's column coordinate. -/
theorem dotM_rhs_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
/-- The right operand's column coordinate is the contraction index. -/
theorem dotM_rhs_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

end M

/-- The product kernel stores at entry (p, o) the inner product of row p of its left block with row o of its right
    operand (both operands are contracted along their second axis). -/
theorem payM_apply (v0 : Vec Ideal S1024x1024 .bf16) (v2 : Vec Ideal S2048x1024 .bf16) (p : Fin 1024) (o : Fin 2048) :
    k2_pay1 (F := Ideal) v0 v2 (ix2 p o) = ∑ k : Fin 1024, (v0 (ix2 p k) : EReal) * (v2 (ix2 o k) : EReal) := by
  unfold k2_pay1
  simp only [shapeCast_self]
  refine (Ideal.matmul_constant_zero_apply (φ₁ := .bf16) (φ₂ := .bf16) dot_S1024x1024_S2048x1024_S1024x2048_1_1_0_0_n_n none v0 v2 (ix2 p o)).trans ?_
  rw [← Equiv.sum_comp (ValueIdx.contrEquiv1 dot_S1024x1024_S2048x1024_S1024x2048_1_1_0_0_n_n 1024 rfl rfl).symm]
  refine Finset.sum_congr rfl fun k _ => ?_
  have hk := ValueIdx.contrEquiv1_symm_val dot_S1024x1024_S2048x1024_S1024x2048_1_1_0_0_n_n 1024 rfl rfl k
  have el : dot_S1024x1024_S2048x1024_S1024x2048_1_1_0_0_n_n.lhsIdx (ix2 p o) ((ValueIdx.contrEquiv1 dot_S1024x1024_S2048x1024_S1024x2048_1_1_0_0_n_n 1024 rfl rfl).symm k) = ix2 p k := funext fun a => Fin.ext (by
    match a with
    | ⟨0, _⟩ => exact M.dotM_lhs_0 _ _
    | ⟨1, _⟩ => exact (M.dotM_lhs_1 _ _).trans hk)
  have er : dot_S1024x1024_S2048x1024_S1024x2048_1_1_0_0_n_n.rhsIdx (ix2 p o) ((ValueIdx.contrEquiv1 dot_S1024x1024_S2048x1024_S1024x2048_1_1_0_0_n_n 1024 rfl rfl).symm k) = ix2 o k := funext fun a => Fin.ext (by
    match a with
    | ⟨0, _⟩ => exact M.dotM_rhs_0 _ _
    | ⟨1, _⟩ => exact (M.dotM_rhs_1 _ _).trans hk)
  rw [el, er]

end Cert.KernelIdeal.Hand

end
-- ==== Proof.Reg2.lean ====
/-
  The third region (16 grid points, each a block of 1024 rows of the product): the array it leaves.
-/
import proofs.«114957_j68985764708845_1_alg».proof.Proof.Gen.KernelIdeal.Frame
import proofs.«114957_j68985764708845_1_alg».proof.Proof.PayM
import proofs.«114957_j68985764708845_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

/-- The left array (the quantized tokens) as the region finds it, as a matrix of extended reals. -/
abbrev arrL (c : Dev nD) : S16384x1024.Idx → EReal := V c main_v3
/-- The right array (the quantized weights) as the region finds it. -/
abbrev arrR (c : Dev nD) : S2048x1024.Idx → EReal := V c main_v1

namespace M

/-- The zero offset of a whole-block access. -/
theorem zeroOff : (![0, 0] : Fin 2 → Nat) = fun _ => 0 := funext fun a => by fin_cases a <;> rfl

/-- The three windows' block indices at grid point t: the left operand's and the result's block is (t, 0), the right
    operand's is (0, 0). -/
theorem blockIdx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product array: entry (r, o) is the inner product of row r of the left array with row o of the right array. -/
abbrev prodArr (c : Dev nD) : S16384x2048.Idx → EReal := fun i =>
  (∑ k : Fin 1024, arrL V c (ix2 ⟨(i 0).val, (i 0).isLt⟩ k) * arrR V c (ix2 ⟨(i 1).val, (i 1).isLt⟩ k) : EReal)

/-- Entry (p, k) of the left operand's block at point t is entry (1024 t + p, k) of the left array. -/
theorem blkL_apply (c : Dev nD) (t : Fin cfg2.N) (p k : Fin 1024) (r : Fin 16384) (hr : r.val = t.val * 1024 + p.val) :
    (iblk2 V c 0 t : S1024x1024.Idx → EReal) (ix2 p k) = arrL V c (ix2 r k) := by
  obtain ⟨e0, e1, -⟩ := blockIdx t
  unfold iblk2
  rw [View.read_apply]
  show arrL V c _ = arrL V c _
  congr 1
  funext a; apply Fin.ext
  match a with
  | ⟨0, _⟩ => show win2_0.index t (0 : Fin 2) * 1024 + 1 * p.val = r.val; rw [e0, hr]; omega
  | ⟨1, _⟩ => show win2_0.index t (1 : Fin 2) * 1024 + 1 * k.val = k.val; rw [e1]; omega

/-- The right operand's block at every point is the right array. -/
theorem blkR_apply (c : Dev nD) (t : Fin cfg2.N) (o : Fin 2048) (k : Fin 1024) (o' : Fin 2048) (ho : o'.val = o.val) :
    (iblk2 V c 1 t : S2048x1024.Idx → EReal) (ix2 o k) = arrR V c (ix2 o' k) := by
  obtain ⟨-, -, e0, e1, -⟩ := blockIdx t
  unfold iblk2
  rw [View.read_apply]
  show arrR V c _ = arrR V c _
  congr 1
  funext a; apply Fin.ext
  match a with
  | ⟨0, _⟩ => show win2_1.index t (0 : Fin 2) * 2048 + 1 * o.val = o'.val; rw [e0, ho]; omega
  | ⟨1, _⟩ => show win2_1.index t (1 : Fin 2) * 1024 + 1 * k.val = k.val; rw [e1]; omega

/-- What point t writes back is block t of the product array. -/
theorem flushed_eq (c : Dev nD) (t : Fin cfg2.N) :
    (dat2 V c).flushed 2 t = ((cfg2.win 2).blk t).view.read (Elt Ideal) (prodArr V c) := by
  show (cfg2.win 2).cut (grid2.coords t) ((dat2 V c).after 2 t) = _
  rw [after2_2]
  unfold out2_2
  rw [View.canon_unit_zero zeroOff]
  simp only [View.ld_unit_zero (S := S1024x1024) zeroOff, View.ld_unit_zero (S := S2048x1024) zeroOff]
  obtain ⟨-, -, -, -, e0, e1⟩ := blockIdx t
  funext j
  obtain ⟨p, q, rfl⟩ : ∃ (p : Fin 1024) (q : Fin 2048), j = (ix2 p q : S1024x2048.Idx) := ⟨j 0, j 1, eq_ix2 (n0 := 1024) (n1 := 2048) j⟩
  show k2_pay1 (F := Ideal) (iblk2 V c 0 t) (iblk2 V c 1 t) (ix2 p q) = prodArr V c (((cfg2.win 2).blk t).view.emb (ix2 p q))
  rw [payM_apply]
  refine Finset.sum_congr rfl fun k _ => ?_
  rw [blkL_apply V c t p k ⟨((((cfg2.win 2).blk t).view.emb (ix2 p q)) 0).val, ((((cfg2.win 2).blk t).view.emb (ix2 p q)) 0).isLt⟩
      (show win2_2.index t (0 : Fin 2) * 1024 + 1 * p.val = t.val * 1024 + p.val by rw [e0]; omega),
    blkR_apply V c t q k ⟨((((cfg2.win 2).blk t).view.emb (ix2 p q)) 1).val, ((((cfg2.win 2).blk t).view.emb (ix2 p q)) 1).isLt⟩
      (show win2_2.index t (1 : Fin 2) * 2048 + 1 * q.val = q.val by rw [e1]; omega)]

/-- An index of the result array is in point t's block iff each coordinate is in the block's range on its axis. -/
theorem mem_blk (t : Fin cfg2.N) (i : S16384x2048.Idx) :
    i ∈ ((cfg2.win 2).blk t).view.set ↔ ∀ a : Fin 2, win2_2.index t a * S1024x2048.size a ≤ (i a).val ∧ (i a).val < win2_2.index t a * S1024x2048.size a + S1024x2048.size a := by
  show i ∈ ((View.whole main_v4).slice (win2_2.rect t)).set ↔ _
  rw [View.set_slice_whole, Rect.mem_set_unit]
  exact Iff.rfl

/-- Every entry of the result array is in the block of the point its row falls in. -/
theorem cover (i : S16384x2048.Idx) : ∃ t : Fin cfg2.N, (cfg2.win 2).flush t = true ∧ i ∈ ((cfg2.win 2).blk t).view.set := by
  have hi0 : (i 0).val < 16384 := (i 0).isLt
  have hi1 : (i 1).val < 2048 := (i 1).isLt
  have hN : cfg2.N = 16 := rfl
  let t : Fin cfg2.N := ⟨(i 0).val / 1024, by rw [hN]; omega⟩
  obtain ⟨-, -, -, -, e0, e1⟩ := blockIdx t
  have ht : t.val = (i 0).val / 1024 := rfl
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; rw [e0, ht]; omega
  | ⟨1, _⟩ => show win2_2.index t (1 : Fin 2) * 2048 ≤ (i 1).val ∧ (i 1).val < win2_2.index t (1 : Fin 2) * 2048 + 2048; rw [e1]; omega

end M

/-- After the product region its result array holds, at (r, o), the inner product of row r of the left array with
    row o of the right array, as the region found them. -/
theorem final2 (c : Dev nD) :
    (dat2 V c).arrAt 2 cfg2.N = (fun i : S16384x2048.Idx =>
      (∑ k : Fin 1024, arrL V c (ix2 ⟨(i 0).val, (i 0).isLt⟩ k) * arrR V c (ix2 ⟨(i 1).val, (i 1).isLt⟩ k) : EReal)) :=
  (dat2 V c).arrAt_eq_of_cover 2 (M.prodArr V c) (fun t _ => M.flushed_eq V c t) M.cover

end Cert.KernelIdeal.Hand

end
-- ==== Proof.KValue.lean ====
/-
  What the kernel program's result array ends holding, from the three argument arrays.

  The run's buffer contents are a fold through @main: a reshape of the token array to [16384, 1024]; the weight region;
  a reshape of the gain to [1, 1024]; the activation region; the product region; a reshape of the product to
  [4, 4096, 2048]. Each region's array is what that region's value lemma says of the contents it was entered with, and
  a reshape reads the same row-major position: token row r = b·4096 + s of the flattened array is row (b, s) of the
  argument. So the result at (b, s, o) is the inner product of the quantized normalized token row (b, s) with the
  quantized weight row o.
-/
import proofs.«114957_j68985764708845_1_alg».proof.Proof.KRun
import proofs.«114957_j68985764708845_1_alg».proof.Proof.Reg0
import proofs.«114957_j68985764708845_1_alg».proof.Proof.Reg1
import proofs.«114957_j68985764708845_1_alg».proof.Proof.Reg2
import proofs.«114957_j68985764708845_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The token argument, as an array of extended reals. -/
abbrev a0 (c : Dev nD) : S4x4096x1024.Idx → EReal := m ((c.tc : Thread nD τ).loc main_arg0)
/-- The weight argument. -/
abbrev a1 (c : Dev nD) : S2048x1024.Idx → EReal := m ((c.tc : Thread nD τ).loc main_arg1)
/-- The gain argument. -/
abbrev a2 (c : Dev nD) : S1024.Idx → EReal := m ((c.tc : Thread nD τ).loc main_arg2)

/-! ## Before the first region: the flattened tokens -/

/-- The flattened token array at row r = b·4096 + s is the token argument at (b, s). -/
theorem W1_v0_apply (c : Dev nD) (b : Fin 4) (s : Fin 4096) (j : Fin 1024) (r : Fin 16384) (hr : r.val = b.val * 4096 + s.val) :
    (W1 m ρ c (Proc.devRef .tc main_v0) : S16384x1024.Idx → EReal) (ix2 r j) = a0 m c (ix3 b s j) := by
  have e : (W1 m ρ c (Proc.devRef .tc main_v0) : S16384x1024.Idx → EReal)
      = shapeCast S16384x1024 (a0 m c) Facts₀.shapeCasts_S4x4096x1024_S16384x1024 := by
    show StableHlo.after hostOps0 (W0 m ρ c) (Proc.devRef .tc main_v0) = _
    after_results; rfl
  rw [e]
  refine shapeCast_apply (a0 m c) _ (ix2 r j) (ix3 b s j) ?_
  show (S4x4096x1024.rowMajor (ix3 b s j)).val = (S16384x1024.rowMajor (ix2 r j)).val
  rw [Shape.rowMajor_val_three, Shape.rowMajor_val_two]
  show (b.val * 4096 + s.val) * 1024 + j.val = r.val * 1024 + j.val
  rw [hr]

/-- The first reshape leaves the weight argument as launched. -/
theorem W1_arg1 (c : Dev nD) : W1 m ρ c (Proc.devRef .tc main_arg1) = a1 m c := by
  show StableHlo.after hostOps0 (W0 m ρ c) (Proc.devRef .tc main_arg1) = _
  after_results

/-- The first reshape leaves the gain argument as launched. -/
theorem W1_arg2 (c : Dev nD) : W1 m ρ c (Proc.devRef .tc main_arg2) = a2 m c := by
  show StableHlo.after hostOps0 (W0 m ρ c) (Proc.devRef .tc main_arg2) = _
  after_results

/-! ## After the weight region -/

/-- The quantized weights, as the weight region leaves them. -/
theorem W2_v1_apply (c : Dev nD) (o : Fin 2048) (k : Fin 1024) :
    (W2 m ρ c (Proc.devRef .tc main_v1) : S2048x1024.Idx → EReal) (ix2 o k) = Cert.Spec.wQuant (fun r k' => a1 m c (ix2 r k')) o k := by
  have e := (W2_arr m ρ c 1).trans (final0 (V1 m ρ) c)
  have e' := congrFun e (ix2 o k)
  refine e'.trans ?_
  show Cert.Spec.wQuant (fun r k' => (W1 m ρ c (Proc.devRef .tc main_arg1) : S2048x1024.Idx → EReal) (ix2 r k')) o k = _
  rw [W1_arg1]

/-- The weight region leaves the flattened tokens as it found them. -/
theorem W2_v0 (c : Dev nD) : W2 m ρ c (Proc.devRef .tc main_v0) = W1 m ρ c (Proc.devRef .tc main_v0) :=
  W2_of_ne m ρ c main_v0 (by decide)

/-- The weight region leaves the gain argument as launched. -/
theorem W2_arg2 (c : Dev nD) : W2 m ρ c (Proc.devRef .tc main_arg2) = a2 m c :=
  (W2_of_ne m ρ c main_arg2 (by decide)).trans (W1_arg2 m ρ c)

/-! ## Before the activation region: the gain as one row -/

/-- The gain row at (0, j) is the gain argument at j. -/
theorem W3_v2_apply (c : Dev nD) (j : Fin 1024) :
    (W3 m ρ c (Proc.devRef .tc main_v2) : S1x1024.Idx → EReal) (ix2 (0 : Fin 1) j) = a2 m c (ix1 j) := by
  have e : (W3 m ρ c (Proc.devRef .tc main_v2) : S1x1024.Idx → EReal)
      = shapeCast S1x1024 (W2 m ρ c (Proc.devRef .tc main_arg2) : S1024.Idx → EReal) Facts₀.shapeCasts_S1024_S1x1024 := by
    show StableHlo.after hostOps1 (W2 m ρ c) (Proc.devRef .tc main_v2) = _
    after_results; rfl
  rw [e, W2_arg2]
  refine shapeCast_apply (a2 m c) _ (ix2 (0 : Fin 1) j) (ix1 j) ?_
  show (S1024.rowMajor (ix1 j)).val = (S1x1024.rowMajor (ix2 (0 : Fin 1) j)).val
  rw [Shape.rowMajor_val_one, Shape.rowMajor_val_two]
  show j.val = 0 * 1024 + j.val
  omega

/-- The second reshape leaves the flattened tokens in place. -/
theorem W3_v0 (c : Dev nD) : W3 m ρ c (Proc.devRef .tc main_v0) = W1 m ρ c (Proc.devRef .tc main_v0) := by
  refine Eq.trans ?_ (W2_v0 m ρ c)
  show StableHlo.after hostOps1 (W2 m ρ c) (Proc.devRef .tc main_v0) = _
  after_results

/-- The second reshape leaves the quantized weights in place. -/
theorem W3_v1 (c : Dev nD) : W3 m ρ c (Proc.devRef .tc main_v1) = W2 m ρ c (Proc.devRef .tc main_v1) := by
  show StableHlo.after hostOps1 (W2 m ρ c) (Proc.devRef .tc main_v1) = _
  after_results

/-! ## After the activation region -/

/-- The quantized tokens, as the activation region leaves them: row r = b·4096 + s is the quantized normalized token
    row (b, s) of the argument. -/
theorem W4_v3_apply (c : Dev nD) (b : Fin 4) (s : Fin 4096) (k : Fin 1024) (r : Fin 16384) (hr : r.val = b.val * 4096 + s.val) :
    (W4 m ρ c (Proc.devRef .tc main_v3) : S16384x1024.Idx → EReal) (ix2 r k)
      = Cert.Spec.xQuant (fun j => a0 m c (ix3 b s j)) (fun j => a2 m c (ix1 j)) k := by
  have e := congrFun ((W4_arr m ρ c 2).trans (final1 (V3 m ρ) c)) (ix2 r k)
  refine e.trans ?_
  show Cert.Spec.xQuant (fun j => (W3 m ρ c (Proc.devRef .tc main_v0) : S16384x1024.Idx → EReal) (ix2 r j))
      (fun j => (W3 m ρ c (Proc.devRef .tc main_v2) : S1x1024.Idx → EReal) (ix2 (0 : Fin 1) j)) k = _
  rw [W3_v0]
  congr 1
  · funext j; exact W1_v0_apply m ρ c b s j r hr
  · funext j; exact W3_v2_apply m ρ c j

/-- The activation region leaves the quantized weights in place. -/
theorem W4_v1 (c : Dev nD) : W4 m ρ c (Proc.devRef .tc main_v1) = W2 m ρ c (Proc.devRef .tc main_v1) :=
  (W4_of_ne m ρ c main_v1 (by decide)).trans (W3_v1 m ρ c)

/-! ## After the product region, and the last reshape -/

/-- The product array at (r, o), r = b·4096 + s. -/
theorem W5_v4_apply (c : Dev nD) (b : Fin 4) (s : Fin 4096) (o : Fin 2048) (r : Fin 16384) (hr : r.val = b.val * 4096 + s.val) :
    (W5 m ρ c (Proc.devRef .tc main_v4) : S16384x2048.Idx → EReal) (ix2 r o) = Cert.Spec.out (a0 m c) (a1 m c) (a2 m c) b s o := by
  have e := congrFun ((W5_arr m ρ c 2).trans (final2 (V4 m ρ) c)) (ix2 r o)
  refine e.trans ?_
  show (∑ k : Fin 1024, arrL (V4 m ρ) c (ix2 r k) * arrR (V4 m ρ) c (ix2 o k) : EReal) = _
  unfold Cert.Spec.out
  refine Finset.sum_congr rfl fun k _ => ?_
  have hL : arrL (V4 m ρ) c (ix2 r k) = Cert.Spec.xQuant (fun j => a0 m c (ix3 b s j)) (fun j => a2 m c (ix1 j)) k :=
    W4_v3_apply m ρ c b s k r hr
  have hR : arrR (V4 m ρ) c (ix2 o k) = Cert.Spec.wQuant (fun r k' => a1 m c (ix2 r k')) o k :=
    (congrFun (W4_v1 m ρ c) (ix2 o k)).trans (W2_v1_apply m ρ c o k)
  rw [hL, hR]

/-- THE RESULT: at (b, s, o) the result array ends holding the specification's value of the three arguments. -/
theorem result_apply (c : Dev nD) (b : Fin 4) (s : Fin 4096) (o : Fin 2048) :
    (W6 m ρ c (Proc.devRef .tc main_v5) : S4x4096x2048.Idx → EReal) (ix3 b s o) = Cert.Spec.out (a0 m c) (a1 m c) (a2 m c) b s o := by
  have e : (W6 m ρ c (Proc.devRef .tc main_v5) : S4x4096x2048.Idx → EReal)
      = shapeCast S4x4096x2048 (W5 m ρ c (Proc.devRef .tc main_v4) : S16384x2048.Idx → EReal) Facts₀.shapeCasts_S16384x2048_S4x4096x2048 := by
    show StableHlo.after hostOps3 (W5 m ρ c) (Proc.devRef .tc main_v5) = _
    after_results; rfl
  rw [e]
  have hlt : b.val * 4096 + s.val < 16384 := by have := b.isLt; have := s.isLt; omega
  refine (shapeCast_apply (W5 m ρ c (Proc.devRef .tc main_v4) : S16384x2048.Idx → EReal) _ (ix3 b s o)
    (ix2 (⟨b.val * 4096 + s.val, hlt⟩ : Fin 16384) o) ?_).trans (W5_v4_apply m ρ c b s o _ rfl)
  show (S16384x2048.rowMajor (ix2 (⟨b.val * 4096 + s.val, hlt⟩ : Fin 16384) o)).val = (S4x4096x2048.rowMajor (ix3 b s o)).val
  rw [Shape.rowMajor_val_three, Shape.rowMajor_val_two]
  rfl

/-- The result array as one function of the arguments. -/
theorem result_eq (c : Dev nD) :
    (W6 m ρ c (Proc.devRef .tc main_v5) : S4x4096x2048.Idx → EReal)
      = fun i => Cert.Spec.out (a0 m c) (a1 m c) (a2 m c) ⟨(i 0).val, (i 0).isLt⟩ ⟨(i 1).val, (i 1).isLt⟩ ⟨(i 2).val, (i 2).isLt⟩ := by
  funext i
  obtain ⟨b, s, o, rfl⟩ : ∃ (b : Fin 4) (s : Fin 4096) (o : Fin 2048), i = ix3 b s o := ⟨i 0, i 1, i 2, eq_ix3 i⟩
  exact result_apply m ρ c b s o

end Cert.KernelIdeal.Hand

end
-- ==== Proof.RefAfter.lean ====
/-
  The reference's run, read: its result buffer ends at the last stage of the chain of stages, its arguments as
  launched.

  Every buffer ends at what the operations, applied in order to the launch contents, leave there. Unfolding that fold
  at the result buffer gives the operations' composed term of the three arguments, which is the last stage's
  definition unfolded; at an argument, which no operation writes, it gives the argument.
-/
import proofs.«114957_j68985764708845_1_alg».proof.Proof.RefRun
import proofs.«114957_j68985764708845_1_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 8192 in
set_option maxHeartbeats 4000000 in
/-- The result buffer after the operations is the product stage of the contents the arguments started with. -/
theorem after_result (V : Valuation τ sig (Elt F)) :
    after (ops (F := F)) V (Proc.devRef .tc main_v40)
      = val_main_v40 (F := F) (V (Proc.devRef .tc main_arg0)) (V (Proc.devRef .tc main_arg1)) (V (Proc.devRef .tc main_arg2)) := by
  after_results_simp
  rfl

set_option maxRecDepth 8192 in
set_option maxHeartbeats 4000000 in
/-- No operation writes the token argument. -/
theorem after_arg0 (V : Valuation τ sig (Elt F)) :
    after (ops (F := F)) V (Proc.devRef .tc main_arg0) = V (Proc.devRef .tc main_arg0) := by
  after_results_simp

set_option maxRecDepth 8192 in
set_option maxHeartbeats 4000000 in
/-- No operation writes the weight argument. -/
theorem after_arg1 (V : Valuation τ sig (Elt F)) :
    after (ops (F := F)) V (Proc.devRef .tc main_arg1) = V (Proc.devRef .tc main_arg1) := by
  after_results_simp

set_option maxRecDepth 8192 in
set_option maxHeartbeats 4000000 in
/-- No operation writes the gain argument. -/
theorem after_arg2 (V : Valuation τ sig (Elt F)) :
    after (ops (F := F)) V (Proc.devRef .tc main_arg2) = V (Proc.devRef .tc main_arg2) := by
  after_results_simp

/-- The run, read: the result at the product stage of the launched arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = val_main_v40 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v40).trans (after_result _), (h c main_arg0).trans (after_arg0 _),
      (h c main_arg1).trans (after_arg1 _), (h c main_arg2).trans (after_arg2 _)⟩)
    (Cert.ReferenceIdeal.ValueP.run m ρ)

end Cert.ReferenceIdeal.Hand

end
-- ==== Proof.Consts.lean ====
/-
  The float literals whose VALUE the argument uses, as extended reals, and two laws of the extended reals.

  The reference clips to integer bounds it converts to float (−1, 1, −128, 127) where the kernel prints the float
  literal: each bound is read here as the same real on both sides. The reference's straight-through form
  `y + (q − y)` is `q` only where `y` is a real number, which takes the normalized row to be real: hence the value of
  the divisor 1024 and the positivity of the normalization's ε.
-/
import Idealize.ShloMosaic.PureOps.Ideal
import Idealize.ShloMosaic.PureOps.Ideal.Laws

noncomputable section

namespace Cert.Consts

open Idealize.ShloMosaic

/-- `1.0` denotes 1. -/
theorem lit_one : Ideal.ofBits .f32 0x3F800000#32 = ((1 : ℝ) : EReal) := by
  simp [Ideal.ofBits, Ideal.ieee, -EReal.coe_mul]; norm_num

/-- `-1.0` denotes −1. -/
theorem lit_neg_one : Ideal.ofBits .f32 0xBF800000#32 = ((-1 : ℝ) : EReal) := by
  simp [Ideal.ofBits, Ideal.ieee, -EReal.coe_mul]; norm_num

/-- `127.0` denotes 127. -/
theorem lit_127 : Ideal.ofBits .f32 0x42FE0000#32 = ((127 : ℝ) : EReal) := by
  simp [Ideal.ofBits, Ideal.ieee, -EReal.coe_mul]; norm_num

/-- `-128.0` denotes −128. -/
theorem lit_neg_128 : Ideal.ofBits .f32 0xC3000000#32 = ((-128 : ℝ) : EReal) := by
  simp [Ideal.ofBits, Ideal.ieee, -EReal.coe_mul]; norm_num

/-- `1024.0` denotes 1024. -/
theorem lit_1024 : Ideal.ofBits .f32 0x44800000#32 = ((1024 : ℝ) : EReal) := by
  simp [Ideal.ofBits, Ideal.ieee, -EReal.coe_mul]; norm_num

/-- The normalization's ε (the f32 nearest 1e-8) denotes a positive real: it is 11258999 · 2^(−50). -/
theorem lit_eps_norm : ∃ e : ℝ, 0 < e ∧ Ideal.ofBits .f32 0x322BCC77#32 = (e : EReal) := by
  refine ⟨(11258999 : ℝ) * (2 : ℝ) ^ (-50 : Int), by positivity, ?_⟩
  simp [Ideal.ofBits, Ideal.ieee, -EReal.coe_mul]

/-- The quantizers' ε (the f32 nearest 1e-5) denotes a positive real: it is 10995116 · 2^(−40). -/
theorem lit_eps_q : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-- The integer 1 converted to float is the literal `1.0`. -/
theorem sitofp_one : FloatOps.sitofp (F := Ideal) .f32 (1#32 : BitVec 32) = Ideal.ofBits .f32 0x3F800000#32 := by
  show ((BitVec.toInt (1#32 : BitVec 32) : ℝ) : EReal) = _
  rw [lit_one]
  have h : BitVec.toInt (1#32 : BitVec 32) = 1 := by decide
  rw [h]; norm_num

/-- The integer −1 converted to float is the literal `-1.0`. -/
theorem sitofp_neg_one : FloatOps.sitofp (F := Ideal) .f32 (4294967295#32 : BitVec 32) = Ideal.ofBits .f32 0xBF800000#32 := by
  show ((BitVec.toInt (4294967295#32 : BitVec 32) : ℝ) : EReal) = _
  rw [lit_neg_one]
  have h : BitVec.toInt (4294967295#32 : BitVec 32) = -1 := by decide
  rw [h]; norm_num

/-- The integer 127 converted to float is the literal `127.0`. -/
theorem sitofp_127 : FloatOps.sitofp (F := Ideal) .f32 (127#32 : BitVec 32) = Ideal.ofBits .f32 0x42FE0000#32 := by
  show ((BitVec.toInt (127#32 : BitVec 32) : ℝ) : EReal) = _
  rw [lit_127]
  have h : BitVec.toInt (127#32 : BitVec 32) = 127 := by decide
  rw [h]; norm_num

/-- The integer −128 converted to float is the literal `-128.0`. -/
theorem sitofp_neg_128 : FloatOps.sitofp (F := Ideal) .f32 (4294967168#32 : BitVec 32) = Ideal.ofBits .f32 0xC3000000#32 := by
  show ((BitVec.toInt (4294967168#32 : BitVec 32) : ℝ) : EReal) = _
  rw [lit_neg_128]
  have h : BitVec.toInt (4294967168#32 : BitVec 32) = -128 := by decide
  rw [h]; norm_num

/-- Adding back what was subtracted: `a + (b − a) = b` for a real `a` and any extended real `b`. -/
theorem add_sub_cancel_real (a : ℝ) (b : EReal) : (a : EReal) + (b - (a : EReal)) = b := by
  induction b using EReal.rec with
  | bot => simp
  | top => simp
  | coe r => rw [← EReal.coe_sub, ← EReal.coe_add]; congr 1; ring

/-- A finite sum of reals, as an extended real, is the real sum. -/
theorem coe_finset_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.Consts

end
-- ==== Proof.RefW.lean ====
/-
  The reference's quantized weights at an entry.

  The reference takes the mean of |w| over the whole matrix in one sum (the kernel sums the rows' sums), clips to
  the integers −1 and 1 converted to float (the kernel to the float literals), and adds the difference back onto
  the weights, `w + (q − w)`, which is `q` because every weight is a real number.
-/
import proofs.«114957_j68985764708845_1_alg».proof.Proof.RefRead
import proofs.«114957_j68985764708845_1_alg».proof.Proof.Spec
import proofs.«114957_j68985764708845_1_alg».proof.Proof.Consts
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal Cert.ReferenceIdeal.ReadP

namespace W

/-- The reference's one scale of the weight matrix is the specification's: the sum over all entries of the matrix is
    the sum over the rows of the rows' sums, and the sum's initial value is zero. -/
theorem refScale (x1 : (⟨S2048x1024, .f32⟩ : BufTy).Contents (Elt Ideal)) (i : S_.Idx) :
    val_main_v31 (F := Ideal) x1 i = Cert.Spec.wScale (fun r c => x1 (ix2 r c)) := by
  simp only [val_main_v31_apply, val_main_v30_apply, val_main_call3_v0_apply, val_main_v29_apply, val_main_v28_apply,
    val_main_cst_9_apply, val_main_cst_8_apply, val_main_cst_7_apply, val_main_cst_6_apply, val_main_v27_apply]
  simp only [Ideal.hostDivf_def, Ideal.maximumf_def, Ideal.ofBits_def, Ideal.hostAbsf_def, Ideal.absf_def,
    Ideal.ofBits_zero_f32, zero_add]
  rw [sum_idx2]
  rfl

end W

/-- The reference's weight operand of its product, at entry (o, k), is the quantized weight there. -/
theorem refW_apply (x1 : (⟨S2048x1024, .f32⟩ : BufTy).Contents (Elt Ideal)) (h1 : ∀ i, ∃ r : ℝ, x1 i = (r : EReal))
    (o : Fin 2048) (k : Fin 1024) :
    val_main_v39 (F := Ideal) x1 (ix2 o k) = Cert.Spec.wQuant (fun r c => x1 (ix2 r c)) o k := by
  have key : ∀ q : EReal, x1 (ix2 o k) + (q - x1 (ix2 o k)) = q := by
    intro q
    obtain ⟨r, hr⟩ := h1 (ix2 o k)
    rw [hr]
    exact Cert.Consts.add_sub_cancel_real r q
  simp only [val_main_v39_apply, val_main_v38_apply, val_main_v37_apply, val_main_v36_apply, val_main_v35_apply,
    val_main_call5_v4_apply, val_main_call5_v3_apply, val_main_c_11_apply, val_main_call5_v2_apply,
    val_main_call5_v1_apply, val_main_call5_v0_apply, val_main_c_10_apply, val_main_v34_apply, val_main_v33_apply,
    val_main_v32_apply, W.refScale]
  simp only [Ideal.hostDivf_def, Ideal.hostUnary_roundeven_def, Ideal.maximumf_def, Ideal.minimumf_def, Ideal.mulf_def,
    Ideal.addf_def, Ideal.subf_def, Cert.Consts.sitofp_one, Cert.Consts.sitofp_neg_one]
  rw [key]
  rfl

end Cert.ReferenceIdeal.Hand

end
-- ==== Proof.RefX.lean ====
/-
  The reference's quantized activations at an entry.

  The reference normalizes and quantizes the token array in its three-axis layout; at token (b, s) everything it
  computes depends on that token's row only. It clips to the integers −128 and 127 converted to float, and adds
  the difference back onto the normalized row, `x̂ + (q − x̂)`, which is `q` because the normalized row is real: the
  inputs are real, the mean square plus ε is a positive real, and its reciprocal root is real.
-/
import proofs.«114957_j68985764708845_1_alg».proof.Proof.RefRead
import proofs.«114957_j68985764708845_1_alg».proof.Proof.Spec
import proofs.«114957_j68985764708845_1_alg».proof.Proof.Consts
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Hand

open Idealize.ShloMosaic Idealize.ShloMosaic.ValueIdx Cert.ReferenceIdeal Cert.ReferenceIdeal.ReadP

namespace X

/-- The normalized row at an entry. -/
theorem v12_apply (x0 : (⟨S4x4096x1024, .f32⟩ : BufTy).Contents (Elt Ideal)) (x2 : (⟨S1024, .f32⟩ : BufTy).Contents (Elt Ideal))
    (b : Fin 4) (s : Fin 4096) (k : Fin 1024) :
    val_main_v12 (F := Ideal) x0 x2 (ix3 b s k) = Cert.Spec.xNorm (fun j => x0 (ix3 b s j)) (fun j => x2 (ix1 j)) k := by
  have e1 : ∀ j : Fin 1024, idx_main_v1 (idx_main_v2 (idx_main_v8 (ix3 b s k))) j = ix3 b s j := fun j =>
    funext fun a => Fin.ext (by match a with | ⟨0, _⟩ => rfl | ⟨1, _⟩ => rfl | ⟨2, _⟩ => rfl)
  have e2 : idx_main_v10 (idx_main_v11 (ix3 b s k)) = ix1 k :=
    funext fun a => Fin.ext (by match a with | ⟨0, _⟩ => rfl)
  rw [val_main_v12_apply, val_main_v9_apply, val_main_v8_apply, val_main_v7_apply, val_main_v6_apply, val_main_v4_apply,
    val_main_v5_apply, val_main_cst_1_apply, val_main_v3_apply, val_main_cst_0_apply, val_main_v2_apply, val_main_v1_apply,
    val_main_cst_apply, val_main_v11_apply, val_main_v10_apply, e2]
  simp only [val_main_v0_apply, e1]
  simp only [Ideal.hostDivf_def, Ideal.hostUnary_rsqrt_def, Ideal.mulf_def, Ideal.addf_def, Ideal.ofBits_def,
    Ideal.ofBits_zero_f32, zero_add]
  rfl

/-- The reduced index (b, s) with feature k put back is (b, s, k). -/
theorem lift_ix3 (h : S4x4096x1024.Reduces [2] S4x4096) (b : Fin 4) (s : Fin 4096) (k : Fin (S4x4096x1024.size 2)) :
    h.lift (ix2 b s) k = ix3 b s (⟨k.val, k.isLt⟩ : Fin 1024) := by
  funext c; apply Fin.ext
  match c with | ⟨0, _⟩ => rfl | ⟨1, _⟩ => rfl | ⟨2, _⟩ => rfl

/-- The row's largest normalized magnitude: the fold of the maximum from −∞ over the row. -/
theorem v14_apply (x0 : (⟨S4x4096x1024, .f32⟩ : BufTy).Contents (Elt Ideal)) (x2 : (⟨S1024, .f32⟩ : BufTy).Contents (Elt Ideal))
    (b : Fin 4) (s : Fin 4096) :
    val_main_v14 (F := Ideal) x0 x2 (ix2 b s)
      = Cert.Spec.rowMax fun k => Cert.Spec.absE (Cert.Spec.xNorm (fun j => x0 (ix3 b s j)) (fun j => x2 (ix1 j)) k) := by
  have h : S4x4096x1024.Reduces [2] S4x4096 := by decide
  unfold val_main_v14
  rw [Host.reduce_eq_fold_single FloatOps.maximumf _ _ Gen.reducesTo_S4x4096x1024_S4x4096_d2 h Gen.h_S_]
  have hf : (val_main_v13 (F := Ideal) x0 x2 ∘ h.lift (ix2 b s))
      = fun k : Fin 1024 => Cert.Spec.absE (Cert.Spec.xNorm (fun j => x0 (ix3 b s j)) (fun j => x2 (ix1 j)) k) :=
    funext fun k => by
      show val_main_v13 (F := Ideal) x0 x2 (h.lift (ix2 b s) k) = _
      rw [lift_ix3, val_main_v13_apply, v12_apply]
      rfl
  rw [hf]
  rfl

/-- The row's scale. -/
theorem v18_apply (x0 : (⟨S4x4096x1024, .f32⟩ : BufTy).Contents (Elt Ideal)) (x2 : (⟨S1024, .f32⟩ : BufTy).Contents (Elt Ideal))
    (b : Fin 4) (s : Fin 4096) (z : Fin 1) :
    val_main_v18 (F := Ideal) x0 x2 (ix3 b s z) = Cert.Spec.xScale (fun j => x0 (ix3 b s j)) (fun j => x2 (ix1 j)) := by
  have e : idx_main_v15 (ix3 b s z) = ix2 b s :=
    funext fun a => Fin.ext (by match a with | ⟨0, _⟩ => rfl | ⟨1, _⟩ => rfl)
  rw [val_main_v18_apply, val_main_v17_apply, val_main_cst_4_apply, val_main_v16_apply, val_main_call0_v1_apply,
    val_main_call0_v0_apply, val_main_cst_3_apply, val_main_v15_apply, e, v14_apply]
  rfl

/-- The quantized entry before the difference is added back. -/
theorem v24_apply (x0 : (⟨S4x4096x1024, .f32⟩ : BufTy).Contents (Elt Ideal)) (x2 : (⟨S1024, .f32⟩ : BufTy).Contents (Elt Ideal))
    (b : Fin 4) (s : Fin 4096) (k : Fin 1024) :
    val_main_v24 (F := Ideal) x0 x2 (ix3 b s k) = Cert.Spec.xQuant (fun j => x0 (ix3 b s j)) (fun j => x2 (ix1 j)) k := by
  have e19 : idx_main_v19 (ix3 b s k) = ix3 b s (0 : Fin 1) :=
    funext fun a => Fin.ext (by match a with | ⟨0, _⟩ => rfl | ⟨1, _⟩ => rfl | ⟨2, _⟩ => rfl)
  have e23 : idx_main_v23 (ix3 b s k) = ix3 b s (0 : Fin 1) :=
    funext fun a => Fin.ext (by match a with | ⟨0, _⟩ => rfl | ⟨1, _⟩ => rfl | ⟨2, _⟩ => rfl)
  rw [val_main_v24_apply, val_main_v23_apply, e23, v18_apply, val_main_v22_apply, val_main_call2_v4_apply,
    val_main_call2_v3_apply, val_main_c_5_apply, Cert.Consts.sitofp_127, val_main_call2_v2_apply, val_main_call2_v1_apply,
    val_main_call2_v0_apply, val_main_c_apply, Cert.Consts.sitofp_neg_128, val_main_v21_apply, val_main_v20_apply,
    val_main_v19_apply, e19, v18_apply, v12_apply]
  rfl

/-- The normalized row of a real row and a real gain row is real: the mean square plus ε is a positive real, so its
    reciprocal root is a real. -/
theorem xNorm_real (x g : Fin 1024 → EReal) (hx : ∀ j, ∃ r : ℝ, x j = (r : EReal)) (hg : ∀ j, ∃ r : ℝ, g j = (r : EReal))
    (k : Fin 1024) : ∃ r : ℝ, Cert.Spec.xNorm x g k = (r : EReal) := by
  choose xr hxr using hx
  choose gr hgr using hg
  obtain ⟨e, he, hee⟩ := Cert.Consts.lit_eps_norm
  have hsum : (∑ j : Fin 1024, x j * x j) = ((∑ j : Fin 1024, xr j * xr j : ℝ) : EReal) := by
    rw [← Cert.Consts.coe_finset_sum]
    refine Finset.sum_congr rfl fun j _ => ?_
    rw [hxr j, ← EReal.coe_mul]
  have hs : 0 ≤ ∑ j : Fin 1024, xr j * xr j := Finset.sum_nonneg fun j _ => mul_self_nonneg _
  have hp : 0 < (∑ j : Fin 1024, xr j * xr j) * (1 / 1024 : ℝ) + e := by
    have := mul_nonneg hs (by norm_num : (0 : ℝ) ≤ 1 / 1024)
    linarith
  simp only [Cert.Spec.xNorm, Cert.Spec.lit]
  rw [hsum, Cert.Consts.lit_1024, Ideal.div_coe (by norm_num : (1024 : ℝ) ≠ 0), hee, ← EReal.coe_mul, ← EReal.coe_add,
    Ideal.rsqrt_coe, if_neg (not_lt.mpr hp.le), if_neg hp.ne', hxr k, hgr k, ← EReal.coe_mul, ← EReal.coe_mul]
  exact ⟨_, rfl⟩

end X

/-- The reference's token operand of its product, at token (b, s) and feature k, is the quantized normalized token
    row there. -/
theorem refX_apply (x0 : (⟨S4x4096x1024, .f32⟩ : BufTy).Contents (Elt Ideal)) (x2 : (⟨S1024, .f32⟩ : BufTy).Contents (Elt Ideal))
    (h0 : ∀ i, ∃ r : ℝ, x0 i = (r : EReal)) (h2 : ∀ i, ∃ r : ℝ, x2 i = (r : EReal))
    (b : Fin 4) (s : Fin 4096) (k : Fin 1024) :
    val_main_v26 (F := Ideal) x0 x2 (ix3 b s k) = Cert.Spec.xQuant (fun j => x0 (ix3 b s j)) (fun j => x2 (ix1 j)) k := by
  obtain ⟨r, hr⟩ := X.xNorm_real (fun j => x0 (ix3 b s j)) (fun j => x2 (ix1 j)) (fun j => h0 _) (fun j => h2 _) k
  rw [val_main_v26_apply, val_main_v25_apply, X.v24_apply, X.v12_apply, hr]
  exact Cert.Consts.add_sub_cancel_real r _

end Cert.ReferenceIdeal.Hand

end
-- ==== Proof.RefOut.lean ====
/-
  The reference's result at an entry: the inner product of the quantized token row with the quantized weight row.
-/
import proofs.«114957_j68985764708845_1_alg».proof.Proof.RefRead
import proofs.«114957_j68985764708845_1_alg».proof.Proof.RefW
import proofs.«114957_j68985764708845_1_alg».proof.Proof.RefX
import proofs.«114957_j68985764708845_1_alg».proof.Proof.Spec
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal Cert.ReferenceIdeal.ReadP

namespace O

/-- The left operand's index at result entry (b, s, o) and contraction coordinate k is (b, s, k). -/
theorem lidx_ix3 (b : Fin 4) (s : Fin 4096) (o : Fin 2048) (k : Fin 1024) :
    lidx_main_v40 (ix3 b s o) k = ix3 b s k :=
  funext fun a => Fin.ext (by
    match a with
    | ⟨0, _⟩ => rfl
    | ⟨1, _⟩ => rfl
    | ⟨2, _⟩ => rfl)

/-- The right operand's index at result entry (b, s, o) and contraction coordinate k is (o, k). -/
theorem ridx_ix3 (b : Fin 4) (s : Fin 4096) (o : Fin 2048) (k : Fin 1024) :
    ridx_main_v40 (ix3 b s o) k = ix2 o k :=
  funext fun a => Fin.ext (by
    match a with
    | ⟨0, _⟩ => rfl
    | ⟨1, _⟩ => rfl)

end O

/-- The reference's result at token (b, s) and output feature o, for argument arrays of real numbers. -/
theorem refOut_apply (x0 : (⟨S4x4096x1024, .f32⟩ : BufTy).Contents (Elt Ideal)) (x1 : (⟨S2048x1024, .f32⟩ : BufTy).Contents (Elt Ideal))
    (x2 : (⟨S1024, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (b : Fin 4) (s : Fin 4096) (o : Fin 2048) :
    val_main_v40 (F := Ideal) x0 x1 x2 (ix3 b s o) = Cert.Spec.out x0 x1 x2 b s o := by
  rw [val_main_v40_apply]
  unfold Cert.Spec.out
  refine Finset.sum_congr rfl fun k _ => ?_
  rw [O.lidx_ix3, O.ridx_ix3, refX_apply x0 x2 h0 h2, refW_apply x1 h1]

end Cert.ReferenceIdeal.Hand

end
-- ==== Proof.Finite.lean ====
/-
  The precondition read: every entry of the three argument arrays is a real number.

  The printed predicate is the conjunction of three `all(|x| < +∞)`; at the ideal values an entry whose magnitude is
  below +∞ is neither infinity, so it is a real.
-/
import proofs.«114957_j68985764708845_1_alg».proof.Pre_finite_inputs
import proofs.«114957_j68985764708845_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The rank-0 shape has one index. -/
instance : Subsingleton S_.Idx := ⟨fun a b => funext fun d => d.elim0⟩

/-- The pattern of +∞ denotes ⊤. -/
theorem lit_inf : Ideal.ofBits .f32 0x7F800000#32 = (⊤ : EReal) := by
  simp [Ideal.ofBits, Ideal.ieee]

/-- An extended real whose magnitude compares below +∞ is a real: it is neither ⊥ (magnitude ⊤) nor ⊤. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.absf_def, Ideal.ofBits_def, lit_inf, Ideal.cmpf_def] at h
  induction x using EReal.rec with
  | bot => simp [Ideal.cmp] at h
  | top => simp [Ideal.cmp] at h
  | coe r => exact ⟨r, rfl⟩

/-- Under the precondition every entry of each argument array is a real number. -/
theorem real_of_pre (x0 : FVec Ideal S4x4096x1024 .f32) (x1 : FVec Ideal S2048x1024 .f32) (x2 : FVec Ideal S1024 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt (x0 i) (Host.reduce_andi_all _ _ _ _ _ h0' i)
  · exact real_of_abs_lt (x1 i) (Host.reduce_andi_all _ _ _ _ _ h1 i)
  · exact real_of_abs_lt (x2 i) (Host.reduce_andi_all _ _ _ _ _ h2 i)

end Cert.Finite

end
-- ==== Proof.lean ====
/-
  The certificate: the kernel program (three regions: a ternary weight quantizer, an RMS-normalizing 8-bit activation
  quantizer, and a matrix product) against its reference, over the extended reals.

  Both programs compute, at token (b, s) and output feature o, the inner product of the quantized normalized token row
  with the quantized weight row (the specification's `out`). On the kernel's side the three regions' arrays are read
  off the run one after the other; on the reference's side the chain of host stages is read at an index. The two
  differ in the grouping of the weight matrix's absolute sum, in the layout of the tokens (flattened to rows or kept
  in three axes), in how the clip bounds are spelt, and in the reference's adding a difference back
  (`y + (q − y)`), which is `q` because the inputs, hence the normalized rows, are real numbers: the one place the
  precondition is used. No rewrite was recorded between the kernel and its idealization, so that claim is trivial.
-/
import proofs.«114957_j68985764708845_1_alg».proof.Defs
import proofs.«114957_j68985764708845_1_alg».proof.Proof.Gen.Kernel
import proofs.«114957_j68985764708845_1_alg».proof.Proof.Gen.Kernel.Frame
import proofs.«114957_j68985764708845_1_alg».proof.Proof.Gen.KernelIdeal
import proofs.«114957_j68985764708845_1_alg».proof.Proof.Gen.KernelIdeal.Frame
import proofs.«114957_j68985764708845_1_alg».proof.Proof.Gen.ReferenceIdeal
import proofs.«114957_j68985764708845_1_alg».proof.Proof.Gen.Pre_finite_inputs
import proofs.«114957_j68985764708845_1_alg».proof.Proof.KRun
import proofs.«114957_j68985764708845_1_alg».proof.Proof.KValue
import proofs.«114957_j68985764708845_1_alg».proof.Proof.RefAfter
import proofs.«114957_j68985764708845_1_alg».proof.Proof.RefOut
import proofs.«114957_j68985764708845_1_alg».proof.Proof.Finite
import Idealize.ShloMosaic.Adequacy
import Idealize.ShloMosaic.Init

noncomputable section

namespace Cert.Proof

open Idealize.ShloMosaic Idealize.SL.Sem Idealize.ShloMosaic.ValueIdx

/-- The kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- From memories agreeing on real arguments both programs end with the specification's value of the arguments in
    their result arrays. -/
theorem algebraic : Cert.algebraic_KernelIdeal_ReferenceIdeal := by
  intro m ρ m' ρ' hpre hagree
  refine ⟨fun c => (fun i => Cert.Spec.out (Cert.KernelIdeal.Hand.a0 m c) (Cert.KernelIdeal.Hand.a1 m c) (Cert.KernelIdeal.Hand.a2 m c)
      ⟨(i 0).val, (i 0).isLt⟩ ⟨(i 1).val, (i 1).isLt⟩ ⟨(i 2).val, (i 2).isLt⟩), ?_, ?_⟩
  · exact (θ_run Cert.KernelIdeal.defs _ _).mono
      (fun _ h c => ⟨(h c).1.trans (Cert.KernelIdeal.Hand.result_eq m ρ c), (h c).2⟩)
      (Cert.KernelIdeal.GenR.run_result (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, h2⟩ := Cert.Finite.real_of_pre _ _ _ (hpre c)
    rw [(hagree c).1, (hagree c).2.1, (hagree c).2.2]
    funext i
    obtain ⟨b, s, o, rfl⟩ : ∃ (b : Fin 4) (s : Fin 4096) (o : Fin 2048), i = ix3 b s o := ⟨i 0, i 1, i 2, eq_ix3 i⟩
    exact Cert.ReferenceIdeal.Hand.refOut_apply _ _ _ h0 h1 h2 b s o

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
